-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 131
  | .vmem => 24
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S128x128, .f32⟩
  | 12 => ⟨S50000x128, .f32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S1x128, .f32⟩
  | 70 => ⟨S50000x128, .f32⟩
  | 71 => ⟨S128x128, .f32⟩
  | 72 => ⟨S50000x128, .f32⟩
  | 73 => ⟨S_, .f32⟩
  | 74 => ⟨S50000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S_, .f32⟩
  | 84 => ⟨S800000, .f32⟩
  | 85 => ⟨S50000, .f32⟩
  | 86 => ⟨S_, .f32⟩
  | 87 => ⟨S50000, .f32⟩
  | 88 => ⟨S50000, .f32⟩
  | 89 => ⟨S50000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S800000x1, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_c_11 : Ref sig .tc := ⟨.hbm, 75, rfl⟩
abbrev main_v55 : Ref sig .tc := ⟨.hbm, 76, rfl⟩
abbrev main_v56 : Ref sig .tc := ⟨.hbm, 77, rfl⟩
abbrev main_c_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_17 : Ref sig .tc := ⟨.hbm, 99, rfl⟩
abbrev main_v73 : Ref sig .tc := ⟨.hbm, 100, rfl⟩
abbrev main_v74 : Ref sig .tc := ⟨.hbm, 101, rfl⟩
abbrev main_c_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_19 : Ref sig .tc := ⟨.hbm, 109, rfl⟩
abbrev main_v81 : Ref sig .tc := ⟨.hbm, 110, rfl⟩
abbrev main_v82 : Ref sig .tc := ⟨.hbm, 111, rfl⟩
abbrev main_c_20 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_21 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S128x128, .f32⟩
  | 12 => ⟨S50000x128, .f32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S_, .f32⟩
  | 75 => ⟨S50000x128, .f32⟩
  | 76 => ⟨S50000x128, .i1⟩
  | 77 => ⟨S_, .f32⟩
  | 78 => ⟨S50000x128, .f32⟩
  | 79 => ⟨S50000x128, .f32⟩
  | 80 => ⟨S50000x128, .f32⟩
  | 81 => ⟨S128x128, .f32⟩
  | 82 => ⟨S50000x128, .f32⟩
  | 83 => ⟨S_, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S_, .f32⟩
  | 94 => ⟨S800000, .f32⟩
  | 95 => ⟨S50000, .f32⟩
  | 96 => ⟨S_, .f32⟩
  | 97 => ⟨S50000, .f32⟩
  | 98 => ⟨S50000, .f32⟩
  | 99 => ⟨S50000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S800000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x128, .f32⟩

abbrev hbmTy0_1 (i : Nat) : BufTy := match i % 128 with
  | 0 => ⟨S800000x1, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_c_19 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_c_21 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_22 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  Both programs compute the same two graph-convolution layers. This module names the pieces, each a function of
  WHOLE arrays, so that each side's result can be stated as one composition and the two compared piece by piece.

  Write N = 50000 nodes, E = 800000 edges, D = 128 features; `src`, `dst : [E]` are the two rows of the edge list.
  One layer, for node features `h : [N, D]` and a bias `b : [D]`:
    * `degInvSqrt dst`     d[n] = (1 + #{e | dst e = n})^(-1/2): the in-degree with the self loop, to the power -1/2;
    * `edgeNorm src dst`   w[e] = d[src e] · d[dst e];
    * `messages h src dst` a[n, :] = Σ_{e | dst e = n} h[src e, :] · w[e]: the neighbours' rows, scaled, added up;
    * `selfLoop h dst`     s[n, :] = h[n, :] · d[n]²: the node's own row through its self loop;
    * `combine a s r`      (a + s) + r[0, :], the bias row `r : [1, D]` repeated down the N rows;
    * `leaky y`            y where y ≥ 0 and c · y elsewhere, c the float 0.01.
  A layer's input is a product `x · wt` (`linearT`, the weight already transposed), and the network is
    out = combine-layer₂ (linearT (leaky (combine-layer₁ (linearT x W1ᵀ))) W2ᵀ).
  Nothing here is opened by the proof except `combine`, `leaky` and `linearT`, read at an index where a kernel
  region is compared with them; the gathers and scatter-adds stay closed: both programs apply the same ones to
  equal arrays.
-/
import proofs.«167321_j11570641895553_1_alg».proof.Proof.Gen.ReferenceIdeal

noncomputable section

namespace Cert.Spec

open Cert.ReferenceIdeal Cert.ReferenceIdeal.Facts₀ Cert.ReferenceIdeal.Facts Idealize.ShloMosaic Idealize.ShloMosaic.TcCoe

variable {F : FTy → Type} [FloatOps F]

/-- A float array of shape `s`, and an integer one. -/
abbrev FArr (F : FTy → Type) (s : Shape) : Type := (⟨s, .f32⟩ : BufTy).Contents (Elt F)
abbrev IArr (F : FTy → Type) (s : Shape) : Type := (⟨s, .i32⟩ : BufTy).Contents (Elt F)

/-- Row 0 of the edge list: every edge's source node. -/
def srcOf (e : IArr F S2x800000) : IArr F S800000 :=
  fun i => shapeCast S800000 (extractStridedSlice S1x800000 ![0, 0] e slices_S2x800000_S1x800000_0_0) shapeCasts_S1x800000_S800000 i

/-- Row 1 of the edge list: every edge's destination node. -/
def dstOf (e : IArr F S2x800000) : IArr F S800000 :=
  fun i => shapeCast S800000 (extractStridedSlice S1x800000 ![1, 0] e slices_S2x800000_S1x800000_1_0) shapeCasts_S1x800000_S800000 i

/-- A node index as an indexing operation takes it: a negative one counted from the end (N added), as a column. -/
def wrapIdx (i : IArr F S800000) : IArr F S800000x1 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- d[n] = (1 + the number of edges into n)^(-1/2). -/
def degInvSqrt (dst : IArr F S800000) : FArr F S50000 :=
  Host.rsqrt (addf
    (Host.scatterAdd scatter_S50000_S800000x1_S800000_n_0_0_1
      (broadcastInDim S50000 ![] bcast_S_S50000 (constant S_ .f32 0x00000000#32)) (wrapIdx dst)
      (broadcastInDim S800000 ![] bcast_S_S800000 (constant S_ .f32 0x3F800000#32)))
    (broadcastInDim S50000 ![] bcast_S_S50000 (constant S_ .f32 0x3F800000#32)))

/-- w[e] = d[src e] · d[dst e]. -/
def edgeNorm (src dst : IArr F S800000) : FArr F S800000 :=
  mulf (Host.gather gather_S50000_S800000x1_S800000_n_0_n_n_0_1_1 (degInvSqrt dst) (wrapIdx src))
    (Host.gather gather_S50000_S800000x1_S800000_n_0_n_n_0_1_1 (degInvSqrt dst) (wrapIdx dst))

/-- a[n, :] = Σ over the edges e into n of h[src e, :] · w[e]. -/
def messages (h : FArr F S50000x128) (src dst : IArr F S800000) : FArr F S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 h (wrapIdx src))
      (broadcastInDim S800000x128 ![0, 1] bcast_S800000x1_S800000x128_0_1
        (broadcastInDim S800000x1 ![0] bcast_S800000_S800000x1_0 (edgeNorm src dst))))

/-- s[n, :] = h[n, :] · d[n]². -/
def selfLoop (h : FArr F S50000x128) (dst : IArr F S800000) : FArr F S50000x128 :=
  mulf h (broadcastInDim S50000x128 ![0, 1] bcast_S50000x1_S50000x128_0_1
    (broadcastInDim S50000x1 ![0] bcast_S50000_S50000x1_0 (mulf (degInvSqrt dst) (degInvSqrt dst))))

/-- x · wt: rows of `x` against columns of the (already transposed) weight. -/
def linearT (x : FArr F S50000x128) (wt : FArr F S128x128) : FArr F S50000x128 :=
  Host.dotGeneral dot_S50000x128_S128x128_S50000x128_1_0_0_1_n_n none x wt

/-- The weight as a layer applies it: transposed. -/
def transposed (w : FArr F S128x128) : FArr F S128x128 := transpose S128x128 [1, 0] w transposes_S128x128_S128x128_1_0

/-- A bias as a row `[1, D]`. -/
def biasRow (b : FArr F S128) : FArr F S1x128 := broadcastInDim S1x128 ![1] bcast_S128_S1x128_1 b

/-- A row `[1, D]` repeated down the N rows. -/
def rowsOf (r : FArr F S1x128) : FArr F S50000x128 := broadcastInDim S50000x128 ![0, 1] bcast_S1x128_S50000x128_0_1 r

/-- (a + s) + the bias row, in this order. -/
def combine (a s : FArr F S50000x128) (r : FArr F S1x128) : FArr F S50000x128 := addf (addf a s) (rowsOf r)

/-- y where y ≥ 0, c · y elsewhere, c the float with pattern 0x3C23D70A. -/
def leaky (y : FArr F S50000x128) : FArr F S50000x128 :=
  select (cmpf .oge y (broadcastInDim S50000x128 ![] bcast_S_S50000x128 (constant S_ .f32 0x00000000#32))) y
    (mulf (broadcastInDim S50000x128 ![] bcast_S_S50000x128 (id (constant S_ .f32 0x3C23D70A#32))) y)

/-- One layer before its activation, from the projected features `h`. -/
def layer (h : FArr F S50000x128) (src dst : IArr F S800000) (r : FArr F S1x128) : FArr F S50000x128 :=
  combine (messages h src dst) (selfLoop h dst) r

/-- The whole network: two layers, the first one's output through `leaky`. -/
def out (x : FArr F S50000x128) (e : IArr F S2x800000) (w1 : FArr F S128x128) (b1 : FArr F S128) (w2 : FArr F S128x128) (b2 : FArr F S128) :
    FArr F S50000x128 :=
  layer (linearT (leaky (layer (linearT x (transposed w1)) (srcOf e) (dstOf e) (biasRow b1))) (transposed w2))
    (srcOf e) (dstOf e) (biasRow b2)

end Cert.Spec

end
-- ==== Proof.RegionLinear.lean ====
/-
  A product region's output array. The region walks the N = 50000 rows in ten blocks of 5000; at a block it loads the
  block's rows of `x` and the whole 128 × 128 weight and stores their product. At the extended reals a change of
  float format is the identity and the product into a zero accumulator is the plain sum Σ_k x[r, k] · wt[k, q], which
  is what the host's whole-array product is at row r: so the ten stored blocks are the ten row-blocks of
  `Spec.linearT x wt`, and they cover the array.
-/
import proofs.«167321_j11570641895553_1_alg».proof.Proof.Gen.KernelIdeal.Frame
import proofs.«167321_j11570641895553_1_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

namespace Linear

open Idealize.ShloMosaic.ValueIdx

/-- The zero offsets of a load or store of a whole block. -/
theorem zeroOffsets : (![0, 0] : Fin 2 → Nat) = fun _ => 0 := funext fun a => by fin_cases a <;> rfl

/-! ## A block's product at an entry

The product contracts axis 1 of the rows with axis 0 of the weight. At output entry (p, q) and feature k the left
operand is read at (p, k) and the right one at (k, q): one statement per operand axis. -/

theorem blockLhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem blockLhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blockRhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blockRhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Region 0's stored value at entry (p, q) of a block: the narrowing of both operands is the identity on the extended
    reals and the accumulator is zero, so it is Σ_k x0[p, k] · x1[k, q] over the 128 features. -/
theorem blockProduct0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact blockLhs_0 _ _
      | ⟨1, _⟩ => exact (blockLhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (blockRhs_0 _ _).trans hk
      | ⟨1, _⟩ => exact blockRhs_1 _ _)
  rw [el, er]
  show x0 (ix2 p k) * shapeCast S128x128 x1 shapeCasts_S128x128_S128x128 (ix2 k q) = _
  rw [shapeCast_self]

/-- Region 2's stored value is region 0's: it only recasts the rows to their own shape first. -/
theorem blockProduct2_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  have e : k2_pay1 x0 x1 = k0_pay1 x0 x1 := by
    unfold k2_pay1 k0_pay1
    rw [shapeCast_self x0]
  rw [e, blockProduct0_apply]

/-! ## The whole product at an entry

The host's product of the whole array has the same contraction, over its own record of the axes. -/

theorem wholeLhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl
theorem wholeLhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem wholeRhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem wholeRhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- `Spec.linearT X W` at entry (r, q): Σ_k X[r, k] · W[k, q] over the 128 features. -/
theorem linearT_apply (X : Vec Ideal S50000x128 .f32) (W : Vec Ideal S128x128 .f32) (r : Fin 50000) (q : Fin 128) :
    Cert.Spec.linearT (F := Ideal) X W (ix2 r q) = ∑ k : Fin 128, X (ix2 r k) * W (ix2 k q) := by
  simp only [Cert.Spec.linearT, Host.dotGeneral]
  refine (Ideal.dotGeneral_apply Cert.ReferenceIdeal.dot_S50000x128_S128x128_S50000x128_1_0_0_1_n_n none _ _ _ (ix2 r q)).trans ?_
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k :=
    funext fun a => Fin.ext (by
      match a with
      | ⟨0, _⟩ => exact wholeLhs_0 _ _
      | ⟨1, _⟩ => exact (wholeLhs_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q :=
    funext fun a => Fin.ext (by
      match a with
      | ⟨0, _⟩ => exact (wholeRhs_0 _ _).trans hk
      | ⟨1, _⟩ => exact wholeRhs_1 _ _)
  rw [el, er]

/-! ## A block of rows against the whole array -/

/-- Row `p` of block `n` (of ten) is row `5000 n + p` of the array. -/
theorem blockRow_lt {n : ℕ} (hn : n < 10) (p : Fin 5000) : n * 5000 + p.val < 50000 := by
  have := p.isLt; omega

/-- If a block holds rows `5000 n … 5000 n + 4999` of `X` and the weight's block is `W`, the block's sum over the
    features at (p, q) is the whole product at row `5000 n + p`: term by term the same sum. -/
theorem blockSum_eq (X : Vec Ideal S50000x128 .f32) (W : Vec Ideal S128x128 .f32)
    (x0 : Vec Ideal S5000x128 .f32) (x1 : Vec Ideal S128x128 .f32) (n : ℕ) (hn : n < 10)
    (h0 : ∀ (p : Fin 5000) (k : Fin 128), x0 (ix2 p k) = X (ix2 ⟨n * 5000 + p.val, blockRow_lt hn p⟩ k))
    (h1 : ∀ (k q : Fin 128), x1 (ix2 k q) = W (ix2 k q)) (p : Fin 5000) (q : Fin 128) :
    ∑ k : Fin 128, x0 (ix2 p k) * x1 (ix2 k q)
      = Cert.Spec.linearT (F := Ideal) X W (ix2 ⟨n * 5000 + p.val, blockRow_lt hn p⟩ q) := by
  rw [linearT_apply]
  exact Finset.sum_congr rfl fun k _ => by rw [h0, h1]

variable (V : (c : Dev nD) → (b : Ref sig .tc) → Buf (Elt Ideal) ((c : Thread nD τ).loc b))

/-! ## Region 0: from the ten blocks to the array -/

/-- Where region 0's blocks sit: at point `t` the rows' block and the output's block are block-row `t`, column
    block 0; the weight's block is the whole weight. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has ten points. -/
theorem point0_lt (t : Fin cfg0.N) : t.val < 10 := t.isLt

/-- The rows' block at point `t`, entry (p, k), is the array at row `5000 t + p`, column k. -/
theorem rowsBlock0_apply (c : Dev nD) (t : Fin cfg0.N) (p : Fin 5000) (k : Fin 128) :
    (iblk0 (F := Ideal) V c 0 t : Vec Ideal S5000x128 .f32) (ix2 p k)
      = (V c main_arg0 : Vec Ideal S50000x128 .f32) (ix2 ⟨t.val * 5000 + p.val, blockRow_lt (point0_lt t) p⟩ k) := by
  obtain ⟨e0, e1, -⟩ := blocks0 t
  unfold iblk0
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight's block at any point is the weight. -/
theorem weightBlock0_apply (c : Dev nD) (t : Fin cfg0.N) (k q : Fin 128) :
    (iblk0 (F := Ideal) V c 1 t : Vec Ideal S128x128 .f32) (ix2 k q) = (V c main_v4 : Vec Ideal S128x128 .f32) (ix2 k q) := by
  obtain ⟨-, -, e2, e3, -⟩ := blocks0 t
  unfold iblk0
  show V c main_v4 (((cfg0.win 1).blk t).view.emb (ix2 k q)) = _
  refine congrArg (V c main_v4) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is block-row `t` of the whole product: the body stores one whole block, the product of
    the two blocks it loaded whole, and entry (p, q) of it is the whole product at row `5000 t + p`. -/
theorem written0 (c : Dev nD) (t : Fin cfg0.N) :
    (dat0 (F := Ideal) V c).flushed 2 t
      = ((cfg0.win 2).blk t).view.read (Elt Ideal) (Cert.Spec.linearT (F := Ideal) (V c main_arg0) (V c main_v4)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨-, -, -, -, e4, e5⟩ := blocks0 t
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Spec.linearT (F := Ideal) (V c main_arg0) (V c main_v4) (((cfg0.win 2).blk t).view.emb (ix2 p q))
  have hemb : ((cfg0.win 2).blk t).view.emb (ix2 p q) = ix2 ⟨t.val * 5000 + p.val, blockRow_lt (point0_lt t) p⟩ q :=
    funext fun a => Fin.ext (by
      match a with
      | ⟨0, _⟩ => show win0_2.index t (0 : Fin 2) * 5000 + 1 * p.val = t.val * 5000 + p.val; omega
      | ⟨1, _⟩ => show win0_2.index t (1 : Fin 2) * 128 + 1 * q.val = q.val; omega)
  rw [hemb]
  exact (blockProduct0_apply (iblk0 V c 0 t) (iblk0 V c 1 t) p q).trans
    (blockSum_eq (V c main_arg0) (V c main_v4) (iblk0 V c 0 t) (iblk0 V c 1 t) t.val (point0_lt t)
      (rowsBlock0_apply V c t) (weightBlock0_apply V c t) p q)

/-- An entry of the output array lies in point `t`'s block iff each coordinate lies in the block's range. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v5).slice (win0_2.rect t)).set ↔ _
  rw [View.set_slice_whole, Rect.mem_set_unit]
  exact Iff.rfl

/-- Every one of the ten block-rows is some point's. -/
theorem point_of_blockRow0 : ∀ n : Fin 10, ∃ t : Fin cfg0.N, t.val = n.val :=
  (by decide +kernel : ∀ n : Fin 10, ∃ t : Fin grid0.N, t.val = n.val)

/-- The ten blocks cover the output array: row r lies in block-row r / 5000, and every column in column block 0. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := point_of_blockRow0 ⟨(i 0).val / 5000, by omega⟩
  have ht' : t.val = (i 0).val / 5000 := ht
  obtain ⟨-, -, -, -, e4, e5⟩ := blocks0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## Region 2: from the ten blocks to the array -/

/-- Where region 2's blocks sit: at point `t` the rows' block and the output's block are block-row `t`, column
    block 0; the weight's block is the whole weight. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The grid has ten points. -/
theorem point2_lt (t : Fin cfg2.N) : t.val < 10 := t.isLt

/-- The rows' block at point `t`, entry (p, k), is the array at row `5000 t + p`, column k. -/
theorem rowsBlock2_apply (c : Dev nD) (t : Fin cfg2.N) (p : Fin 5000) (k : Fin 128) :
    (iblk2 (F := Ideal) V c 0 t : Vec Ideal S5000x128 .f32) (ix2 p k)
      = (V c main_v51 : Vec Ideal S50000x128 .f32) (ix2 ⟨t.val * 5000 + p.val, blockRow_lt (point2_lt t) p⟩ k) := by
  obtain ⟨e0, e1, -⟩ := blocks2 t
  unfold iblk2
  show V c main_v51 (((cfg2.win 0).blk t).view.emb (ix2 p k)) = _
  refine congrArg (V c main_v51) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The weight's block at any point is the weight. -/
theorem weightBlock2_apply (c : Dev nD) (t : Fin cfg2.N) (k q : Fin 128) :
    (iblk2 (F := Ideal) V c 1 t : Vec Ideal S128x128 .f32) (ix2 k q) = (V c main_v52 : Vec Ideal S128x128 .f32) (ix2 k q) := by
  obtain ⟨-, -, e2, e3, -⟩ := blocks2 t
  unfold iblk2
  show V c main_v52 (((cfg2.win 1).blk t).view.emb (ix2 k q)) = _
  refine congrArg (V c main_v52) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- What point `t` writes back is block-row `t` of the whole product: the body stores one whole block, the product of
    the two blocks it loaded whole, and entry (p, q) of it is the whole product at row `5000 t + p`. -/
theorem written2 (c : Dev nD) (t : Fin cfg2.N) :
    (dat2 (F := Ideal) V c).flushed 2 t
      = ((cfg2.win 2).blk t).view.read (Elt Ideal) (Cert.Spec.linearT (F := Ideal) (V c main_v51) (V c main_v52)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x128) zeroOffsets]
  obtain ⟨-, -, -, -, e4, e5⟩ := blocks2 t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.Spec.linearT (F := Ideal) (V c main_v51) (V c main_v52) (((cfg2.win 2).blk t).view.emb (ix2 p q))
  have hemb : ((cfg2.win 2).blk t).view.emb (ix2 p q) = ix2 ⟨t.val * 5000 + p.val, blockRow_lt (point2_lt t) p⟩ q :=
    funext fun a => Fin.ext (by
      match a with
      | ⟨0, _⟩ => show win2_2.index t (0 : Fin 2) * 5000 + 1 * p.val = t.val * 5000 + p.val; omega
      | ⟨1, _⟩ => show win2_2.index t (1 : Fin 2) * 128 + 1 * q.val = q.val; omega)
  rw [hemb]
  exact (blockProduct2_apply (iblk2 V c 0 t) (iblk2 V c 1 t) p q).trans
    (blockSum_eq (V c main_v51) (V c main_v52) (iblk2 V c 0 t) (iblk2 V c 1 t) t.val (point2_lt t)
      (rowsBlock2_apply V c t) (weightBlock2_apply V c t) p q)

/-- An entry of the output array lies in point `t`'s block iff each coordinate lies in the block's range. -/
theorem mem_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- Every one of the ten block-rows is some point's. -/
theorem point_of_blockRow2 : ∀ n : Fin 10, ∃ t : Fin cfg2.N, t.val = n.val :=
  (by decide +kernel : ∀ n : Fin 10, ∃ t : Fin grid2.N, t.val = n.val)

/-- The ten blocks cover the output array: row r lies in block-row r / 5000, and every column in column block 0. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := point_of_blockRow2 ⟨(i 0).val / 5000, by omega⟩
  have ht' : t.val = (i 0).val / 5000 := ht
  obtain ⟨-, -, -, -, e4, e5⟩ := blocks2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

end Linear

variable (V : (c : Dev nD) → (b : Ref sig .tc) → Buf (Elt Ideal) ((c : Thread nD τ).loc b))

/-- Region 0 (the first layer's projection): its output array is the product of its two input arrays. -/
theorem lin0 (c : Dev nD) :
    (dat0 (F := Ideal) V c).arrAt 2 cfg0.N = Cert.Spec.linearT (V c main_arg0) (V c main_v4) :=
  (dat0 V c).arrAt_eq_of_cover 2 (Cert.Spec.linearT (F := Ideal) (V c main_arg0) (V c main_v4))
    (fun t _ => Linear.written0 V c t) Linear.covered0

/-- Region 2 (the second layer's projection): the same kernel on the first layer's output. -/
theorem lin2 (c : Dev nD) :
    (dat2 (F := Ideal) V c).arrAt 2 cfg2.N = Cert.Spec.linearT (V c main_v51) (V c main_v52) :=
  (dat2 V c).arrAt_eq_of_cover 2 (Cert.Spec.linearT (F := Ideal) (V c main_v51) (V c main_v52))
    (fun t _ => Linear.written2 V c t) Linear.covered2

end Cert.KernelIdeal.RegionValue

end
-- ==== Proof.RegionCombine.lean ====
/-
  A finalize region's output array. The region walks the N = 50000 rows in ten blocks of 5000; at a block it loads the
  block's rows of the aggregated messages `a` and of the self-loop term `s` and the one bias row `r`, and stores
  (a + s) + r repeated down the rows — after the first layer through the leaky select (y where y ≥ 0, y · c
  elsewhere). Entry by entry that is `Spec.combine a s r` (and `Spec.leaky` of it, the product with c commuted), so
  the ten stored blocks are its ten row-blocks, and they cover the array.
-/
import proofs.«167321_j11570641895553_1_alg».proof.Proof.Gen.KernelIdeal.Frame
import proofs.«167321_j11570641895553_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## One entry of a stored block, and one entry of the specification's array

Everything here is over blocks and arrays as plain functions of an index `(p, q)`, a row and a feature. -/

/-- A body loads and stores whole blocks: through offsets `(0, 0)`. -/
theorem zero_offsets : (![0, 0] : Fin 2 → Nat) = fun _ => 0 := funext fun a => by fin_cases a <;> rfl

/-- The block the second finalize stores, at `(p, q)`: the two loaded blocks' entries there added, then the bias row's
    entry `(0, q)` — the row is repeated down the block's 5000 rows. -/
theorem sum_block_apply (r : Vec Ideal S1x128 .f32) (a s : Vec Ideal S5000x128 .f32) (p : Fin 5000) (q : Fin 128) :
    k3_pay1 r a s (ix2 p q) = (a (ix2 p q) + s (ix2 p q)) + r (ix2 (0 : Fin 1) q) := by
  unfold k3_pay1
  simp only [shapeCast_self]
  refine (addf_apply _ _ _).trans ?_
  rw [addf_apply, broadcastTo_1b_ab_apply]

/-- `combine a s r` at `(n, q)`: the same sum, in the same order, with the bias row repeated down the N rows. -/
theorem combine_apply (a s : Cert.Spec.FArr Ideal S50000x128) (r : Cert.Spec.FArr Ideal S1x128) (n : Fin 50000) (q : Fin 128) :
    Cert.Spec.combine a s r (ix2 n q) = (a (ix2 n q) + s (ix2 n q)) + r (ix2 (0 : Fin 1) q) := by
  unfold Cert.Spec.combine Cert.Spec.rowsOf
  refine (addf_apply _ _ _).trans ?_
  rw [addf_apply]
  congr 1
  refine broadcastInDim_apply _ _ r (ix2 n q) (ix2 (0 : Fin 1) q) fun ax => ?_
  match ax with
  | ⟨0, _⟩ => rfl
  | ⟨1, _⟩ => rfl

/-- So where the loaded blocks' entries `(p, q)` are the arrays' entries `(n, q)`, the stored entry is `combine`'s. -/
theorem sum_block_eq (x2 : Vec Ideal S1x128 .f32) (x0 x1 : Vec Ideal S5000x128 .f32)
    (a s : Cert.Spec.FArr Ideal S50000x128) (r : Cert.Spec.FArr Ideal S1x128) (p : Fin 5000) (q : Fin 128) (n : Fin 50000)
    (h0 : x0 (ix2 p q) = a (ix2 n q)) (h1 : x1 (ix2 p q) = s (ix2 n q)) (h2 : x2 (ix2 (0 : Fin 1) q) = r (ix2 (0 : Fin 1) q)) :
    k3_pay1 x2 x0 x1 (ix2 p q) = Cert.Spec.combine a s r (ix2 n q) := by
  rw [sum_block_apply, combine_apply, h0, h1, h2]

/-- The block the first finalize stores, at `(p, q)`: with y the second finalize's entry, y where y ≥ 0 and y · c
    elsewhere, c the float 0.01 and the 0 of the comparison both kept as their words. -/
theorem leaky_block_apply (r : Vec Ideal S1x128 .f32) (a s : Vec Ideal S5000x128 .f32) (p : Fin 5000) (q : Fin 128) :
    k1_pay1 r a s (ix2 p q)
      = Scalar.select (FloatOps.cmpf .oge (k3_pay1 r a s (ix2 p q)) (Ideal.ofBits .f32 0x00000000#32))
          (k3_pay1 r a s (ix2 p q)) (k3_pay1 r a s (ix2 p q) * Ideal.ofBits .f32 0x3C23D70A#32) := rfl

/-- `leaky y` at `(n, q)`: y where y ≥ 0 and c · y elsewhere, the two constants read at their one index. -/
theorem leaky_apply (y : Cert.Spec.FArr Ideal S50000x128) (n : Fin 50000) (q : Fin 128) :
    Cert.Spec.leaky y (ix2 n q)
      = Scalar.select (FloatOps.cmpf .oge (y (ix2 n q)) (Ideal.ofBits .f32 0x00000000#32))
          (y (ix2 n q)) (Ideal.ofBits .f32 0x3C23D70A#32 * y (ix2 n q)) := by
  unfold Cert.Spec.leaky
  rw [select_apply, cmpf_apply, mulf_apply,
    broadcastInDim_apply _ _ (constant (F := Ideal) S_ .f32 0x00000000#32) (ix2 n q) ix0 (fun a => a.elim0),
    broadcastInDim_apply _ _ (id (constant (F := Ideal) S_ .f32 0x3C23D70A#32)) (ix2 n q) ix0 (fun a => a.elim0)]
  rfl

/-- The first finalize's stored entry is `leaky (combine …)`'s: the same y on both sides, and the extended reals'
    product commutes. -/
theorem leaky_block_eq (x2 : Vec Ideal S1x128 .f32) (x0 x1 : Vec Ideal S5000x128 .f32)
    (a s : Cert.Spec.FArr Ideal S50000x128) (r : Cert.Spec.FArr Ideal S1x128) (p : Fin 5000) (q : Fin 128) (n : Fin 50000)
    (h0 : x0 (ix2 p q) = a (ix2 n q)) (h1 : x1 (ix2 p q) = s (ix2 n q)) (h2 : x2 (ix2 (0 : Fin 1) q) = r (ix2 (0 : Fin 1) q)) :
    k1_pay1 x2 x0 x1 (ix2 p q) = Cert.Spec.leaky (Cert.Spec.combine a s r) (ix2 n q) := by
  rw [leaky_block_apply, leaky_apply, sum_block_eq x2 x0 x1 a s r p q n h0 h1 h2, mul_comm]

variable (V : (c : Dev nD) → (b : Ref sig .tc) → Buf (Elt Ideal) ((c : Thread nD τ).loc b))

/-! ## Region 3 (the second layer: the sum as it is) -/

/-- Where region 3's blocks sit, decided over its ten points: at point `t` the messages', the self-loop's and the
    output's block is block `(t, 0)` of its array, the bias row's block is block `(0, 0)`, the whole row. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the specification's array: entry `(p, q)` of the stored block is computed
    from entries `(p, q)` of the two loaded blocks and entry `(0, q)` of the bias row, and a block's entry `(p, q)` is the
    array's entry `(5000 t + p, q)` — block index times block extent plus the coordinate inside the block, on each axis. -/
theorem flushed3_eq (c : Dev nD) (t : Fin cfg3.N) :
    (dat3 V c).flushed 3 t = ((cfg3.win 3).blk t).view.read (Elt Ideal)
      (Cert.Spec.combine (V c main_v93) (V c main_v97) (V c main_v98)) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S1x128) zero_offsets]
  obtain ⟨e00, e01, e10, e11, e20, e21, e30, e31⟩ := block_index3 t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  show k3_pay1 (iblk3 V c 2 t) (iblk3 V c 0 t) (iblk3 V c 1 t) (ix2 p q)
    = (Cert.Spec.combine (V c main_v93) (V c main_v97) (V c main_v98)) (((cfg3.win 3).blk t).view.emb (ix2 p q))
  -- the output block's entry (p, q) is the array's entry (5000 t + p, q)
  have hout : ((cfg3.win 3).blk t).view.emb (ix2 p q) = ix2 (⟨t.val * 5000 + p.val, by omega⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  -- so are the messages' and the self-loop term's
  have hmsg : iblk3 V c 0 t (ix2 p q) = V c main_v93 (ix2 (⟨t.val * 5000 + p.val, by omega⟩ : Fin 50000) q) := by
    show V c main_v93 (((cfg3.win 0).blk t).view.emb (ix2 p q)) = _
    refine congrArg (V c main_v93) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  have hself : iblk3 V c 1 t (ix2 p q) = V c main_v97 (ix2 (⟨t.val * 5000 + p.val, by omega⟩ : Fin 50000) q) := by
    show V c main_v97 (((cfg3.win 1).blk t).view.emb (ix2 p q)) = _
    refine congrArg (V c main_v97) (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * q.val = q.val; omega
  -- and the bias row's block is the row itself
  have hrow : iblk3 V c 2 t (ix2 (0 : Fin 1) q) = V c main_v98 (ix2 (0 : Fin 1) q) := by
    show V c main_v98 (((cfg3.win 2).blk t).view.emb (ix2 (0 : Fin 1) q)) = _
    refine congrArg (V c main_v98) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  rw [hout]
  exact sum_block_eq (iblk3 V c 2 t) (iblk3 V c 0 t) (iblk3 V c 1 t) (V c main_v93) (V c main_v97) (V c main_v98) p q
    ⟨t.val * 5000 + p.val, by omega⟩ hmsg hself hrow

/-- An index of the array lies in point `t`'s output block iff each coordinate lies in the block's range on its axis. -/
theorem mem_block3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v99).slice (win3_3.rect t)).set ↔ _
  rw [View.set_slice_whole, Rect.mem_set_unit]
  exact Iff.rfl

/-- The ten blocks cover the array: row `n` lies in the block of point `n / 5000`. -/
theorem covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hlt : (i 0).val / 5000 < 10 := by omega
  obtain ⟨-, -, -, -, -, -, e30, e31⟩ := block_index3 ⟨(i 0).val / 5000, hlt⟩
  refine ⟨⟨(i 0).val / 5000, hlt⟩, flush3_3 _, ?_⟩
  rw [mem_block3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win3_3.index ⟨(i 0).val / 5000, hlt⟩ (1 : Fin 2) * 128 ≤ (i 1).val
      ∧ (i 1).val < win3_3.index ⟨(i 0).val / 5000, hlt⟩ (1 : Fin 2) * 128 + 128
    rw [e31]
    omega

/-! ## Region 1 (the first layer: the sum through the leaky select) -/

/-- Where region 1's blocks sit, decided over its ten points: at point `t` the messages', the self-loop's and the
    output's block is block `(t, 0)` of its array, the bias row's block is block `(0, 0)`, the whole row. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the specification's array: entry `(p, q)` of the stored block is computed
    from entries `(p, q)` of the two loaded blocks and entry `(0, q)` of the bias row, and a block's entry `(p, q)` is the
    array's entry `(5000 t + p, q)` — block index times block extent plus the coordinate inside the block, on each axis. -/
theorem flushed1_eq (c : Dev nD) (t : Fin cfg1.N) :
    (dat1 V c).flushed 3 t = ((cfg1.win 3).blk t).view.read (Elt Ideal)
      (Cert.Spec.leaky (Cert.Spec.combine (V c main_v45) (V c main_v49) (V c main_v50))) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets]
  obtain ⟨e00, e01, e10, e11, e20, e21, e30, e31⟩ := block_index1 t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  show k1_pay1 (iblk1 V c 2 t) (iblk1 V c 0 t) (iblk1 V c 1 t) (ix2 p q)
    = (Cert.Spec.leaky (Cert.Spec.combine (V c main_v45) (V c main_v49) (V c main_v50))) (((cfg1.win 3).blk t).view.emb (ix2 p q))
  -- the output block's entry (p, q) is the array's entry (5000 t + p, q)
  have hout : ((cfg1.win 3).blk t).view.emb (ix2 p q) = ix2 (⟨t.val * 5000 + p.val, by omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  -- so are the messages' and the self-loop term's
  have hmsg : iblk1 V c 0 t (ix2 p q) = V c main_v45 (ix2 (⟨t.val * 5000 + p.val, by omega⟩ : Fin 50000) q) := by
    show V c main_v45 (((cfg1.win 0).blk t).view.emb (ix2 p q)) = _
    refine congrArg (V c main_v45) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  have hself : iblk1 V c 1 t (ix2 p q) = V c main_v49 (ix2 (⟨t.val * 5000 + p.val, by omega⟩ : Fin 50000) q) := by
    show V c main_v49 (((cfg1.win 1).blk t).view.emb (ix2 p q)) = _
    refine congrArg (V c main_v49) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * q.val = q.val; omega
  -- and the bias row's block is the row itself
  have hrow : iblk1 V c 2 t (ix2 (0 : Fin 1) q) = V c main_v50 (ix2 (0 : Fin 1) q) := by
    show V c main_v50 (((cfg1.win 2).blk t).view.emb (ix2 (0 : Fin 1) q)) = _
    refine congrArg (V c main_v50) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  rw [hout]
  exact leaky_block_eq (iblk1 V c 2 t) (iblk1 V c 0 t) (iblk1 V c 1 t) (V c main_v45) (V c main_v49) (V c main_v50) p q
    ⟨t.val * 5000 + p.val, by omega⟩ hmsg hself hrow

/-- An index of the array lies in point `t`'s output block iff each coordinate lies in the block's range on its axis. -/
theorem mem_block1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v51).slice (win1_3.rect t)).set ↔ _
  rw [View.set_slice_whole, Rect.mem_set_unit]
  exact Iff.rfl

/-- The ten blocks cover the array: row `n` lies in the block of point `n / 5000`. -/
theorem covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 5000 < 10 := by omega
  obtain ⟨-, -, -, -, -, -, e30, e31⟩ := block_index1 ⟨(i 0).val / 5000, hlt⟩
  refine ⟨⟨(i 0).val / 5000, hlt⟩, flush1_3 _, ?_⟩
  rw [mem_block1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    rw [e31]
    omega

/-! ## The two arrays -/

/-- Region 1 (the first layer's finalize, with the leaky select). -/
theorem fin1 (c : Dev nD) :
    (dat1 (F := Ideal) V c).arrAt 3 cfg1.N
      = Cert.Spec.leaky (Cert.Spec.combine (V c main_v45) (V c main_v49) (V c main_v50)) :=
  (dat1 V c).arrAt_eq_of_cover 3 (Cert.Spec.leaky (Cert.Spec.combine (V c main_v45) (V c main_v49) (V c main_v50)))
    (fun t _ => flushed1_eq V c t) covered1

/-- Region 3 (the second layer's finalize, no activation). -/
theorem fin3 (c : Dev nD) :
    (dat3 (F := Ideal) V c).arrAt 3 cfg3.N = Cert.Spec.combine (V c main_v93) (V c main_v97) (V c main_v98) :=
  (dat3 V c).arrAt_eq_of_cover 3 (Cert.Spec.combine (V c main_v93) (V c main_v97) (V c main_v98))
    (fun t _ => flushed3_eq V c t) covered3

end Cert.KernelIdeal.RegionValue

end
-- ==== Proof.KernelValue.lean ====
/-
  The kernel program's result as a function of its arguments. The fold of buffer contents through @main alternates
  host stretches and regions; read backwards from the result buffer:
    main_v99 = region 3's output      = combine (messages h₂) (selfLoop h₂) (bias row of b2)
    h₂       = region 2's output      = linearT y₁ (W2 transposed)
    y₁       = region 1's output      = leaky (combine (messages h₁) (selfLoop h₁) (bias row of b1))
    h₁       = region 0's output      = linearT x (W1 transposed)
  with every host stretch between two regions one of the specification's named functions of the arrays it reads, and
  every buffer a later stretch reads but no region in between writes (the two rows of the edge list, the second
  layer's weight and bias) still at what the first stretch, or the launch, left in it. The one place where the two
  programs lay an array out differently: the kernel RESHAPES a bias [128] to a row [1, 128] where the reference
  BROADCASTS it along axis 1; both rows hold b[q] at (0, q).
-/
import proofs.«167321_j11570641895553_1_alg».proof.Proof.KernelRun
import proofs.«167321_j11570641895553_1_alg».proof.Proof.RegionLinear
import proofs.«167321_j11570641895553_1_alg».proof.Proof.RegionCombine
import proofs.«167321_j11570641895553_1_alg».proof.Proof.Spec
import Idealize.ShloMosaic.Lib.StableHlo.Run
import Idealize.ShloMosaic.Lib.Pipeline.Value
import Idealize.ShloMosaic.PureOps.Ideal

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

/-! ## A bias as a row: the reshape and the broadcast along axis 1 are one array -/

section Row
variable {F : FTy → Type} [FloatOps F]

/-- Both rows hold b[q] at (0, q). -/
theorem row_eq (b : Cert.Spec.FArr F Cert.ReferenceIdeal.S128) (h : Cert.ReferenceIdeal.S128.ShapeCasts Cert.ReferenceIdeal.S1x128) :
    (fun i => shapeCast Cert.ReferenceIdeal.S1x128 b h i) = Cert.Spec.biasRow b := by
  funext j
  unfold Cert.Spec.biasRow
  refine (shapeCast_addUnit_apply ![128] b h j).trans ?_
  refine (broadcastInDim_apply ![1] _ b j (fun a => j a.succ) (fun a => ?_)).symm
  have ha : a = 0 := Subsingleton.elim _ _
  subst ha
  rfl
end Row

/-! ## The contents at each boundary, stage by stage (any float instance) -/

section Boundaries
variable {F : FTy → Type} [FloatOps F]
variable (m : (ℓ : Loc nD τ sig) → Buf (Elt F) ℓ) (ρ : Dev nD → PrngReg) (c : Dev nD)

/-! ### After the first host stretch: the edge list's two rows, the first weight transposed -/

/-- Row 0 of the edge list, as a vector. -/
theorem w1_src : W1 m ρ c (Proc.devRef .tc main_v1) = Cert.Spec.srcOf (m ((c.tc : Thread nD τ).loc main_arg1)) := by
  show StableHlo.after hostOps0 (W0 m ρ c) (Proc.devRef .tc main_v1) = _
  after_results_simp
  try rfl

/-- Row 1 of the edge list, as a vector. -/
theorem w1_dst : W1 m ρ c (Proc.devRef .tc main_v3) = Cert.Spec.dstOf (m ((c.tc : Thread nD τ).loc main_arg1)) := by
  show StableHlo.after hostOps0 (W0 m ρ c) (Proc.devRef .tc main_v3) = _
  after_results_simp
  try rfl

/-- The first layer's weight, transposed. -/
theorem w1_wt1 : W1 m ρ c (Proc.devRef .tc main_v4) = Cert.Spec.transposed (m ((c.tc : Thread nD τ).loc main_arg3)) := by
  show StableHlo.after hostOps0 (W0 m ρ c) (Proc.devRef .tc main_v4) = _
  after_results_simp
  try rfl

theorem w1_x : W1 m ρ c (Proc.devRef .tc main_arg0) = (m ((c.tc : Thread nD τ).loc main_arg0)) := by
  show StableHlo.after hostOps0 (W0 m ρ c) (Proc.devRef .tc main_arg0) = _
  after_results_simp
  try rfl

theorem w1_b1 : W1 m ρ c (Proc.devRef .tc main_arg4) = (m ((c.tc : Thread nD τ).loc main_arg4)) := by
  show StableHlo.after hostOps0 (W0 m ρ c) (Proc.devRef .tc main_arg4) = _
  after_results_simp
  try rfl

theorem w1_w2 : W1 m ρ c (Proc.devRef .tc main_arg5) = (m ((c.tc : Thread nD τ).loc main_arg5)) := by
  show StableHlo.after hostOps0 (W0 m ρ c) (Proc.devRef .tc main_arg5) = _
  after_results_simp
  try rfl

theorem w1_b2 : W1 m ρ c (Proc.devRef .tc main_arg6) = (m ((c.tc : Thread nD τ).loc main_arg6)) := by
  show StableHlo.after hostOps0 (W0 m ρ c) (Proc.devRef .tc main_arg6) = _
  after_results_simp
  try rfl

/-! ### Region 0 writes only its output: everything else is carried across -/

theorem w2_src : W2 m ρ c (Proc.devRef .tc main_v1) = Cert.Spec.srcOf (m ((c.tc : Thread nD τ).loc main_arg1)) :=
  (W2_of_ne m ρ c main_v1 (by decide)).trans (w1_src m ρ c)

theorem w2_dst : W2 m ρ c (Proc.devRef .tc main_v3) = Cert.Spec.dstOf (m ((c.tc : Thread nD τ).loc main_arg1)) :=
  (W2_of_ne m ρ c main_v3 (by decide)).trans (w1_dst m ρ c)

theorem w2_b1 : W2 m ρ c (Proc.devRef .tc main_arg4) = (m ((c.tc : Thread nD τ).loc main_arg4)) :=
  (W2_of_ne m ρ c main_arg4 (by decide)).trans (w1_b1 m ρ c)

theorem w2_w2 : W2 m ρ c (Proc.devRef .tc main_arg5) = (m ((c.tc : Thread nD τ).loc main_arg5)) :=
  (W2_of_ne m ρ c main_arg5 (by decide)).trans (w1_w2 m ρ c)

theorem w2_b2 : W2 m ρ c (Proc.devRef .tc main_arg6) = (m ((c.tc : Thread nD τ).loc main_arg6)) :=
  (W2_of_ne m ρ c main_arg6 (by decide)).trans (w1_b2 m ρ c)

/-! ### The second host stretch: the messages, the self-loop term and the bias row, from region 0's output `h` -/

/-- The scaled neighbours' rows, added up per node. -/
theorem w3_msg : W3 m ρ c (Proc.devRef .tc main_v45)
    = Cert.Spec.messages (W2 m ρ c (Proc.devRef .tc main_v5)) (W2 m ρ c (Proc.devRef .tc main_v1)) (W2 m ρ c (Proc.devRef .tc main_v3)) := by
  show StableHlo.after hostOps1 (W2 m ρ c) (Proc.devRef .tc main_v45) = _
  after_results_simp
  rfl

/-- The node's own row through its self loop. -/
theorem w3_self : W3 m ρ c (Proc.devRef .tc main_v49)
    = Cert.Spec.selfLoop (W2 m ρ c (Proc.devRef .tc main_v5)) (W2 m ρ c (Proc.devRef .tc main_v3)) := by
  show StableHlo.after hostOps1 (W2 m ρ c) (Proc.devRef .tc main_v49) = _
  after_results_simp
  rfl

/-- The first bias as a row. -/
theorem w3_row : W3 m ρ c (Proc.devRef .tc main_v50) = Cert.Spec.biasRow (W2 m ρ c (Proc.devRef .tc main_arg4)) := by
  show StableHlo.after hostOps1 (W2 m ρ c) (Proc.devRef .tc main_v50) = _
  after_results_simp
  exact row_eq _ _

theorem w3_src : W3 m ρ c (Proc.devRef .tc main_v1) = W2 m ρ c (Proc.devRef .tc main_v1) := by
  show StableHlo.after hostOps1 (W2 m ρ c) (Proc.devRef .tc main_v1) = _
  after_results_simp

theorem w3_dst : W3 m ρ c (Proc.devRef .tc main_v3) = W2 m ρ c (Proc.devRef .tc main_v3) := by
  show StableHlo.after hostOps1 (W2 m ρ c) (Proc.devRef .tc main_v3) = _
  after_results_simp

theorem w3_w2 : W3 m ρ c (Proc.devRef .tc main_arg5) = W2 m ρ c (Proc.devRef .tc main_arg5) := by
  show StableHlo.after hostOps1 (W2 m ρ c) (Proc.devRef .tc main_arg5) = _
  after_results_simp

theorem w3_b2 : W3 m ρ c (Proc.devRef .tc main_arg6) = W2 m ρ c (Proc.devRef .tc main_arg6) := by
  show StableHlo.after hostOps1 (W2 m ρ c) (Proc.devRef .tc main_arg6) = _
  after_results_simp

/-! ### The third host stretch: the second weight transposed -/

theorem w5_wt2 : W5 m ρ c (Proc.devRef .tc main_v52) = Cert.Spec.transposed (W4 m ρ c (Proc.devRef .tc main_arg5)) := by
  show StableHlo.after hostOps2 (W4 m ρ c) (Proc.devRef .tc main_v52) = _
  after_results_simp
  try rfl

theorem w5_y : W5 m ρ c (Proc.devRef .tc main_v51) = W4 m ρ c (Proc.devRef .tc main_v51) := by
  show StableHlo.after hostOps2 (W4 m ρ c) (Proc.devRef .tc main_v51) = _
  after_results_simp

theorem w5_src : W5 m ρ c (Proc.devRef .tc main_v1) = W4 m ρ c (Proc.devRef .tc main_v1) := by
  show StableHlo.after hostOps2 (W4 m ρ c) (Proc.devRef .tc main_v1) = _
  after_results_simp

theorem w5_dst : W5 m ρ c (Proc.devRef .tc main_v3) = W4 m ρ c (Proc.devRef .tc main_v3) := by
  show StableHlo.after hostOps2 (W4 m ρ c) (Proc.devRef .tc main_v3) = _
  after_results_simp

theorem w5_b2 : W5 m ρ c (Proc.devRef .tc main_arg6) = W4 m ρ c (Proc.devRef .tc main_arg6) := by
  show StableHlo.after hostOps2 (W4 m ρ c) (Proc.devRef .tc main_arg6) = _
  after_results_simp

/-! ### The fourth host stretch: the second layer's messages, self-loop term and bias row, from region 2's output -/

theorem w7_msg : W7 m ρ c (Proc.devRef .tc main_v93)
    = Cert.Spec.messages (W6 m ρ c (Proc.devRef .tc main_v53)) (W6 m ρ c (Proc.devRef .tc main_v1)) (W6 m ρ c (Proc.devRef .tc main_v3)) := by
  show StableHlo.after hostOps3 (W6 m ρ c) (Proc.devRef .tc main_v93) = _
  after_results_simp
  rfl

theorem w7_self : W7 m ρ c (Proc.devRef .tc main_v97)
    = Cert.Spec.selfLoop (W6 m ρ c (Proc.devRef .tc main_v53)) (W6 m ρ c (Proc.devRef .tc main_v3)) := by
  show StableHlo.after hostOps3 (W6 m ρ c) (Proc.devRef .tc main_v97) = _
  after_results_simp
  rfl

theorem w7_row : W7 m ρ c (Proc.devRef .tc main_v98) = Cert.Spec.biasRow (W6 m ρ c (Proc.devRef .tc main_arg6)) := by
  show StableHlo.after hostOps3 (W6 m ρ c) (Proc.devRef .tc main_v98) = _
  after_results_simp
  exact row_eq _ _

/-! ### The carried buffers at the two later regions' exits -/

theorem w4_src : W4 m ρ c (Proc.devRef .tc main_v1) = Cert.Spec.srcOf (m ((c.tc : Thread nD τ).loc main_arg1)) :=
  (W4_of_ne m ρ c main_v1 (by decide)).trans ((w3_src m ρ c).trans (w2_src m ρ c))
theorem w4_dst : W4 m ρ c (Proc.devRef .tc main_v3) = Cert.Spec.dstOf (m ((c.tc : Thread nD τ).loc main_arg1)) :=
  (W4_of_ne m ρ c main_v3 (by decide)).trans ((w3_dst m ρ c).trans (w2_dst m ρ c))
theorem w4_w2 : W4 m ρ c (Proc.devRef .tc main_arg5) = (m ((c.tc : Thread nD τ).loc main_arg5)) :=
  (W4_of_ne m ρ c main_arg5 (by decide)).trans ((w3_w2 m ρ c).trans (w2_w2 m ρ c))
theorem w4_b2 : W4 m ρ c (Proc.devRef .tc main_arg6) = (m ((c.tc : Thread nD τ).loc main_arg6)) :=
  (W4_of_ne m ρ c main_arg6 (by decide)).trans ((w3_b2 m ρ c).trans (w2_b2 m ρ c))
theorem w6_src : W6 m ρ c (Proc.devRef .tc main_v1) = Cert.Spec.srcOf (m ((c.tc : Thread nD τ).loc main_arg1)) :=
  (W6_of_ne m ρ c main_v1 (by decide)).trans ((w5_src m ρ c).trans (w4_src m ρ c))
theorem w6_dst : W6 m ρ c (Proc.devRef .tc main_v3) = Cert.Spec.dstOf (m ((c.tc : Thread nD τ).loc main_arg1)) :=
  (W6_of_ne m ρ c main_v3 (by decide)).trans ((w5_dst m ρ c).trans (w4_dst m ρ c))
theorem w6_b2 : W6 m ρ c (Proc.devRef .tc main_arg6) = (m ((c.tc : Thread nD τ).loc main_arg6)) :=
  (W6_of_ne m ρ c main_arg6 (by decide)).trans ((w5_b2 m ρ c).trans (w4_b2 m ρ c))

end Boundaries

/-! ## The four regions' outputs, and the result, at the extended reals -/

variable (m : (ℓ : Loc nD τ sig) → Buf (Elt Ideal) ℓ) (ρ : Dev nD → PrngReg)

/-- Region 0's output: the first layer's projected features. -/
theorem h1_eq (c : Dev nD) : W2 (F := Ideal) m ρ c (Proc.devRef .tc main_v5) = Cert.Spec.linearT (m ((c.tc : Thread nD τ).loc main_arg0)) (Cert.Spec.transposed (m ((c.tc : Thread nD τ).loc main_arg3))) :=
  (W2_arr m ρ c 2).trans ((Cert.KernelIdeal.RegionValue.lin0 (V1 m ρ) c).trans (by
    rw [show V1 m ρ c main_arg0 = _ from w1_x m ρ c, show V1 m ρ c main_v4 = _ from w1_wt1 m ρ c]))

/-- Region 1's output: the first layer, through the leaky select. -/
theorem y1_eq (c : Dev nD) : W4 (F := Ideal) m ρ c (Proc.devRef .tc main_v51)
    = Cert.Spec.leaky (Cert.Spec.layer (Cert.Spec.linearT (m ((c.tc : Thread nD τ).loc main_arg0)) (Cert.Spec.transposed (m ((c.tc : Thread nD τ).loc main_arg3)))) (Cert.Spec.srcOf (m ((c.tc : Thread nD τ).loc main_arg1))) (Cert.Spec.dstOf (m ((c.tc : Thread nD τ).loc main_arg1))) (Cert.Spec.biasRow (m ((c.tc : Thread nD τ).loc main_arg4)))) :=
  (W4_arr m ρ c 3).trans ((Cert.KernelIdeal.RegionValue.fin1 (V3 m ρ) c).trans (by
    rw [show V3 m ρ c main_v45 = _ from w3_msg m ρ c, show V3 m ρ c main_v49 = _ from w3_self m ρ c,
      show V3 m ρ c main_v50 = _ from w3_row m ρ c, h1_eq m ρ c, w2_src m ρ c, w2_dst m ρ c, w2_b1 m ρ c]
    rfl))

/-- Region 2's output: the second layer's projected features. -/
theorem h2_eq (c : Dev nD) : W6 (F := Ideal) m ρ c (Proc.devRef .tc main_v53)
    = Cert.Spec.linearT (Cert.Spec.leaky (Cert.Spec.layer (Cert.Spec.linearT (m ((c.tc : Thread nD τ).loc main_arg0)) (Cert.Spec.transposed (m ((c.tc : Thread nD τ).loc main_arg3)))) (Cert.Spec.srcOf (m ((c.tc : Thread nD τ).loc main_arg1))) (Cert.Spec.dstOf (m ((c.tc : Thread nD τ).loc main_arg1))) (Cert.Spec.biasRow (m ((c.tc : Thread nD τ).loc main_arg4))))) (Cert.Spec.transposed (m ((c.tc : Thread nD τ).loc main_arg5))) :=
  (W6_arr m ρ c 2).trans ((Cert.KernelIdeal.RegionValue.lin2 (V5 m ρ) c).trans (by
    rw [show V5 m ρ c main_v51 = _ from w5_y m ρ c, show V5 m ρ c main_v52 = _ from w5_wt2 m ρ c, y1_eq m ρ c, w4_w2 m ρ c]))

/-- The fold's last contents at the result buffer are the specification's composition of the arguments. -/
theorem result_eq (c : Dev nD) :
    W8 (F := Ideal) m ρ c (Proc.devRef .tc main_v99)
      = Cert.Spec.out (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) :=
  (W8_arr m ρ c 3).trans ((Cert.KernelIdeal.RegionValue.fin3 (V7 m ρ) c).trans (by
    rw [show V7 m ρ c main_v93 = _ from w7_msg m ρ c, show V7 m ρ c main_v97 = _ from w7_self m ρ c,
      show V7 m ρ c main_v98 = _ from w7_row m ρ c, h2_eq m ρ c, w6_src m ρ c, w6_dst m ρ c, w6_b2 m ρ c]
    rfl))

/-- The kernel program's run with its result named as that composition. -/
theorem run : θ_run defs (onTc (τ := τ) (main (F := Ideal))) ⟨m, fun _ => 0, ρ⟩ (fun r => ∀ c : Dev nD,
      r.2.mem ((c.tc : Thread nD τ).loc main_v99)
        = Cert.Spec.out (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩)
    (Cert.KernelIdeal.Named.run_named (F := Ideal) m ρ)

end Cert.KernelIdeal.Whole

end
-- ==== Proof.RefOps.lean ====
/-
  The reference's @main as lists of host operations: a transcription, line by line and in order, of the operation
  each statement of the printed program runs. The program is printed in three windows; the second holds the one
  call (of the leaky activation), which splits it in two. Four lists: the first window, the second up to the call,
  the second after the call, the third. The call's own operations are listed where the run is proved.
-/
import proofs.«167321_j11570641895553_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 60 operations of main_part0, whole. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg3 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst (constant S_ .f32 0x00000000#32),
    StableHlo.unary main_cst main_v6 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v7 (broadcastInDim S800000 ![] bcast_S_S800000 : (⟨S_, .i32⟩ : BufTy).Contents (Elt F) → (⟨S800000, .i32⟩ : BufTy).Contents (Elt F)),
    StableHlo.binary main_v3 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v9 (broadcastInDim S800000 ![] bcast_S_S800000 : (⟨S_, .i32⟩ : BufTy).Contents (Elt F) → (⟨S800000, .i32⟩ : BufTy).Contents (Elt F)),
    StableHlo.binary main_v3 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_v3 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.nullary main_cst_1 (constant S_ .f32 0x3F800000#32),
    StableHlo.unary main_cst_1 main_v13 (broadcastInDim S800000 ![] bcast_S_S800000 : (⟨S_, .f32⟩ : BufTy).Contents (Elt F) → (⟨S800000, .f32⟩ : BufTy).Contents (Elt F)),
    StableHlo.ternary main_v6 main_v12 main_v13 main_v14 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v15 (broadcastInDim S50000 ![] bcast_S_S50000 : (⟨S_, .f32⟩ : BufTy).Contents (Elt F) → (⟨S50000, .f32⟩ : BufTy).Contents (Elt F)),
    StableHlo.binary main_v14 main_v15 main_v16 (addf : (⟨S50000, .f32⟩ : BufTy).Contents (Elt F) → (⟨S50000, .f32⟩ : BufTy).Contents (Elt F) → (⟨S50000, .f32⟩ : BufTy).Contents (Elt F)),
    StableHlo.unary main_v16 main_v17 (Host.rsqrt : (⟨S50000, .f32⟩ : BufTy).Contents (Elt F) → (⟨S50000, .f32⟩ : BufTy).Contents (Elt F)),
    StableHlo.nullary main_c_3 (constantI S_ 32 0#32),
    StableHlo.unary main_c_3 main_v18 (broadcastInDim S800000 ![] bcast_S_S800000 : (⟨S_, .i32⟩ : BufTy).Contents (Elt F) → (⟨S800000, .i32⟩ : BufTy).Contents (Elt F)),
    StableHlo.binary main_v1 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v20 (broadcastInDim S800000 ![] bcast_S_S800000 : (⟨S_, .i32⟩ : BufTy).Contents (Elt F) → (⟨S800000, .i32⟩ : BufTy).Contents (Elt F)),
    StableHlo.binary main_v1 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v17 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_5 (constantI S_ 32 0#32),
    StableHlo.unary main_c_5 main_v25 (broadcastInDim S800000 ![] bcast_S_S800000 : (⟨S_, .i32⟩ : BufTy).Contents (Elt F) → (⟨S800000, .i32⟩ : BufTy).Contents (Elt F)),
    StableHlo.binary main_v3 main_v25 main_v26 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v27 (broadcastInDim S800000 ![] bcast_S_S800000 : (⟨S_, .i32⟩ : BufTy).Contents (Elt F) → (⟨S800000, .i32⟩ : BufTy).Contents (Elt F)),
    StableHlo.binary main_v3 main_v27 main_v28 (addi : (⟨S800000, .i32⟩ : BufTy).Contents (Elt F) → (⟨S800000, .i32⟩ : BufTy).Contents (Elt F) → (⟨S800000, .i32⟩ : BufTy).Contents (Elt F)),
    StableHlo.ternary main_v26 main_v28 main_v3 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v29 main_v30 (broadcastInDim S800000x1 ![0] bcast_S800000_S800000x1_0 : (⟨S800000, .i32⟩ : BufTy).Contents (Elt F) → (⟨S800000x1, .i32⟩ : BufTy).Contents (Elt F)),
    StableHlo.binary main_v17 main_v30 main_v31 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v24 main_v31 main_v32 (mulf : (⟨S800000, .f32⟩ : BufTy).Contents (Elt F) → (⟨S800000, .f32⟩ : BufTy).Contents (Elt F) → (⟨S800000, .f32⟩ : BufTy).Contents (Elt F)),
    StableHlo.nullary main_c_7 (constantI S_ 32 0#32),
    StableHlo.unary main_c_7 main_v33 (broadcastInDim S800000 ![] bcast_S_S800000 : (⟨S_, .i32⟩ : BufTy).Contents (Elt F) → (⟨S800000, .i32⟩ : BufTy).Contents (Elt F)),
    StableHlo.binary main_v1 main_v33 main_v34 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v35 (broadcastInDim S800000 ![] bcast_S_S800000 : (⟨S_, .i32⟩ : BufTy).Contents (Elt F) → (⟨S800000, .i32⟩ : BufTy).Contents (Elt F)),
    StableHlo.binary main_v1 main_v35 main_v36 (addi : (⟨S800000, .i32⟩ : BufTy).Contents (Elt F) → (⟨S800000, .i32⟩ : BufTy).Contents (Elt F) → (⟨S800000, .i32⟩ : BufTy).Contents (Elt F)),
    StableHlo.ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v37 main_v38 (broadcastInDim S800000x1 ![0] bcast_S800000_S800000x1_0 : (⟨S800000, .i32⟩ : BufTy).Contents (Elt F) → (⟨S800000x1, .i32⟩ : BufTy).Contents (Elt F)),
    StableHlo.binary main_v5 main_v38 main_v39 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v32 main_v40 (broadcastInDim S800000x1 ![0] bcast_S800000_S800000x1_0 : (⟨S800000, .f32⟩ : BufTy).Contents (Elt F) → (⟨S800000x1, .f32⟩ : BufTy).Contents (Elt F)),
    StableHlo.unary main_v40 main_v41 (broadcastInDim S800000x128 ![0, 1] bcast_S800000x1_S800000x128_0_1 : (⟨S800000x1, .f32⟩ : BufTy).Contents (Elt F) → (⟨S800000x128, .f32⟩ : BufTy).Contents (Elt F)),
    StableHlo.binary main_v39 main_v41 main_v42 (mulf : (⟨S800000x128, .f32⟩ : BufTy).Contents (Elt F) → (⟨S800000x128, .f32⟩ : BufTy).Contents (Elt F) → (⟨S800000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v17 main_v17 main_v46 (mulf : (⟨S50000, .f32⟩ : BufTy).Contents (Elt F) → (⟨S50000, .f32⟩ : BufTy).Contents (Elt F) → (⟨S50000, .f32⟩ : BufTy).Contents (Elt F)),
    StableHlo.unary main_v46 main_v47 (broadcastInDim S50000x1 ![0] bcast_S50000_S50000x1_0 : (⟨S50000, .f32⟩ : BufTy).Contents (Elt F) → (⟨S50000x1, .f32⟩ : BufTy).Contents (Elt F)) ]

/-- The 7 operations of main_part1 up to its call line (fn_leaky_relu.body (.of main_v53) (.of main_cst_10) main_call0). -/
abbrev ops1a : List (HloOp τ sig (Elt F)) :=
  [ StableHlo.unary main_v47 main_v48 (broadcastInDim S50000x128 ![0, 1] bcast_S50000x1_S50000x128_0_1 : (⟨S50000x1, .f32⟩ : BufTy).Contents (Elt F) → (⟨S50000x128, .f32⟩ : BufTy).Contents (Elt F)),
    StableHlo.binary main_v5 main_v48 main_v49 (mulf : (⟨S50000x128, .f32⟩ : BufTy).Contents (Elt F) → (⟨S50000x128, .f32⟩ : BufTy).Contents (Elt F) → (⟨S50000x128, .f32⟩ : BufTy).Contents (Elt F)),
    StableHlo.binary main_v45 main_v49 main_v50 (addf : (⟨S50000x128, .f32⟩ : BufTy).Contents (Elt F) → (⟨S50000x128, .f32⟩ : BufTy).Contents (Elt F) → (⟨S50000x128, .f32⟩ : BufTy).Contents (Elt F)),
    StableHlo.unary main_arg4 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3C23D70A#32) ]

/-- The 52 operations of main_part1 after its call line. -/
abbrev ops1b : List (HloOp τ sig (Elt F)) :=
  [ StableHlo.unary main_arg5 main_v55 ((transpose S128x128 [1, 0] · transposes_S128x128_S128x128_1_0) : (⟨S128x128, .f32⟩ : BufTy).Contents (Elt F) → (⟨S128x128, .f32⟩ : BufTy).Contents (Elt F)),
    StableHlo.binary main_v54 main_v55 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_11 (constant S_ .f32 0x00000000#32),
    StableHlo.unary main_cst_11 main_v57 (broadcastInDim S50000 ![] bcast_S_S50000 : (⟨S_, .f32⟩ : BufTy).Contents (Elt F) → (⟨S50000, .f32⟩ : BufTy).Contents (Elt F)),
    StableHlo.nullary main_c_12 (constantI S_ 32 0#32),
    StableHlo.unary main_c_12 main_v58 (broadcastInDim S800000 ![] bcast_S_S800000 : (⟨S_, .i32⟩ : BufTy).Contents (Elt F) → (⟨S800000, .i32⟩ : BufTy).Contents (Elt F)),
    StableHlo.binary main_v3 main_v58 main_v59 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v60 (broadcastInDim S800000 ![] bcast_S_S800000 : (⟨S_, .i32⟩ : BufTy).Contents (Elt F) → (⟨S800000, .i32⟩ : BufTy).Contents (Elt F)),
    StableHlo.binary main_v3 main_v60 main_v61 (addi : (⟨S800000, .i32⟩ : BufTy).Contents (Elt F) → (⟨S800000, .i32⟩ : BufTy).Contents (Elt F) → (⟨S800000, .i32⟩ : BufTy).Contents (Elt F)),
    StableHlo.ternary main_v59 main_v61 main_v3 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v62 main_v63 (broadcastInDim S800000x1 ![0] bcast_S800000_S800000x1_0 : (⟨S800000, .i32⟩ : BufTy).Contents (Elt F) → (⟨S800000x1, .i32⟩ : BufTy).Contents (Elt F)),
    StableHlo.nullary main_cst_14 (constant S_ .f32 0x3F800000#32),
    StableHlo.unary main_cst_14 main_v64 (broadcastInDim S800000 ![] bcast_S_S800000 : (⟨S_, .f32⟩ : BufTy).Contents (Elt F) → (⟨S800000, .f32⟩ : BufTy).Contents (Elt F)),
    StableHlo.ternary main_v57 main_v63 main_v64 main_v65 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_15 (constant S_ .f32 0x3F800000#32),
    StableHlo.unary main_cst_15 main_v66 (broadcastInDim S50000 ![] bcast_S_S50000 : (⟨S_, .f32⟩ : BufTy).Contents (Elt F) → (⟨S50000, .f32⟩ : BufTy).Contents (Elt F)),
    StableHlo.binary main_v65 main_v66 main_v67 (addf : (⟨S50000, .f32⟩ : BufTy).Contents (Elt F) → (⟨S50000, .f32⟩ : BufTy).Contents (Elt F) → (⟨S50000, .f32⟩ : BufTy).Contents (Elt F)),
    StableHlo.unary main_v67 main_v68 (Host.rsqrt : (⟨S50000, .f32⟩ : BufTy).Contents (Elt F) → (⟨S50000, .f32⟩ : BufTy).Contents (Elt F)),
    StableHlo.nullary main_c_16 (constantI S_ 32 0#32),
    StableHlo.unary main_c_16 main_v69 (broadcastInDim S800000 ![] bcast_S_S800000 : (⟨S_, .i32⟩ : BufTy).Contents (Elt F) → (⟨S800000, .i32⟩ : BufTy).Contents (Elt F)),
    StableHlo.binary main_v1 main_v69 main_v70 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v71 (broadcastInDim S800000 ![] bcast_S_S800000 : (⟨S_, .i32⟩ : BufTy).Contents (Elt F) → (⟨S800000, .i32⟩ : BufTy).Contents (Elt F)),
    StableHlo.binary main_v1 main_v71 main_v72 (addi : (⟨S800000, .i32⟩ : BufTy).Contents (Elt F) → (⟨S800000, .i32⟩ : BufTy).Contents (Elt F) → (⟨S800000, .i32⟩ : BufTy).Contents (Elt F)),
    StableHlo.ternary main_v70 main_v72 main_v1 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v73 main_v74 (broadcastInDim S800000x1 ![0] bcast_S800000_S800000x1_0 : (⟨S800000, .i32⟩ : BufTy).Contents (Elt F) → (⟨S800000x1, .i32⟩ : BufTy).Contents (Elt F)),
    StableHlo.binary main_v68 main_v74 main_v75 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_18 (constantI S_ 32 0#32),
    StableHlo.unary main_c_18 main_v76 (broadcastInDim S800000 ![] bcast_S_S800000 : (⟨S_, .i32⟩ : BufTy).Contents (Elt F) → (⟨S800000, .i32⟩ : BufTy).Contents (Elt F)),
    StableHlo.binary main_v3 main_v76 main_v77 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v78 (broadcastInDim S800000 ![] bcast_S_S800000 : (⟨S_, .i32⟩ : BufTy).Contents (Elt F) → (⟨S800000, .i32⟩ : BufTy).Contents (Elt F)),
    StableHlo.binary main_v3 main_v78 main_v79 (addi : (⟨S800000, .i32⟩ : BufTy).Contents (Elt F) → (⟨S800000, .i32⟩ : BufTy).Contents (Elt F) → (⟨S800000, .i32⟩ : BufTy).Contents (Elt F)),
    StableHlo.ternary main_v77 main_v79 main_v3 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v80 main_v81 (broadcastInDim S800000x1 ![0] bcast_S800000_S800000x1_0 : (⟨S800000, .i32⟩ : BufTy).Contents (Elt F) → (⟨S800000x1, .i32⟩ : BufTy).Contents (Elt F)),
    StableHlo.binary main_v68 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v75 main_v82 main_v83 (mulf : (⟨S800000, .f32⟩ : BufTy).Contents (Elt F) → (⟨S800000, .f32⟩ : BufTy).Contents (Elt F) → (⟨S800000, .f32⟩ : BufTy).Contents (Elt F)),
    StableHlo.nullary main_c_20 (constantI S_ 32 0#32),
    StableHlo.unary main_c_20 main_v84 (broadcastInDim S800000 ![] bcast_S_S800000 : (⟨S_, .i32⟩ : BufTy).Contents (Elt F) → (⟨S800000, .i32⟩ : BufTy).Contents (Elt F)),
    StableHlo.binary main_v1 main_v84 main_v85 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v86 (broadcastInDim S800000 ![] bcast_S_S800000 : (⟨S_, .i32⟩ : BufTy).Contents (Elt F) → (⟨S800000, .i32⟩ : BufTy).Contents (Elt F)),
    StableHlo.binary main_v1 main_v86 main_v87 (addi : (⟨S800000, .i32⟩ : BufTy).Contents (Elt F) → (⟨S800000, .i32⟩ : BufTy).Contents (Elt F) → (⟨S800000, .i32⟩ : BufTy).Contents (Elt F)),
    StableHlo.ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v88 main_v89 (broadcastInDim S800000x1 ![0] bcast_S800000_S800000x1_0 : (⟨S800000, .i32⟩ : BufTy).Contents (Elt F) → (⟨S800000x1, .i32⟩ : BufTy).Contents (Elt F)),
    StableHlo.binary main_v56 main_v89 main_v90 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v83 main_v91 (broadcastInDim S800000x1 ![0] bcast_S800000_S800000x1_0 : (⟨S800000, .f32⟩ : BufTy).Contents (Elt F) → (⟨S800000x1, .f32⟩ : BufTy).Contents (Elt F)),
    StableHlo.unary main_v91 main_v92 (broadcastInDim S800000x128 ![0, 1] bcast_S800000x1_S800000x128_0_1 : (⟨S800000x1, .f32⟩ : BufTy).Contents (Elt F) → (⟨S800000x128, .f32⟩ : BufTy).Contents (Elt F)),
    StableHlo.binary main_v90 main_v92 main_v93 (mulf : (⟨S800000x128, .f32⟩ : BufTy).Contents (Elt F) → (⟨S800000x128, .f32⟩ : BufTy).Contents (Elt F) → (⟨S800000x128, .f32⟩ : BufTy).Contents (Elt F)),
    StableHlo.nullary main_cst_22 (constant S_ .f32 0x00000000#32),
    StableHlo.unary main_cst_22 main_v94 (broadcastInDim S50000x128 ![] bcast_S_S50000x128 : (⟨S_, .f32⟩ : BufTy).Contents (Elt F) → (⟨S50000x128, .f32⟩ : BufTy).Contents (Elt F)) ]

/-- The 10 operations of main_part2, whole. -/
abbrev ops2 : List (HloOp τ sig (Elt F)) :=
  [ StableHlo.unary main_v3 main_v95 (broadcastInDim S800000x1 ![0] bcast_S800000_S800000x1_0 : (⟨S800000, .i32⟩ : BufTy).Contents (Elt F) → (⟨S800000x1, .i32⟩ : BufTy).Contents (Elt F)),
    StableHlo.ternary main_v94 main_v95 main_v93 main_v96 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v68 main_v68 main_v97 (mulf : (⟨S50000, .f32⟩ : BufTy).Contents (Elt F) → (⟨S50000, .f32⟩ : BufTy).Contents (Elt F) → (⟨S50000, .f32⟩ : BufTy).Contents (Elt F)),
    StableHlo.unary main_v97 main_v98 (broadcastInDim S50000x1 ![0] bcast_S50000_S50000x1_0 : (⟨S50000, .f32⟩ : BufTy).Contents (Elt F) → (⟨S50000x1, .f32⟩ : BufTy).Contents (Elt F)),
    StableHlo.unary main_v98 main_v99 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v99 main_v100 (mulf : (⟨S50000x128, .f32⟩ : BufTy).Contents (Elt F) → (⟨S50000x128, .f32⟩ : BufTy).Contents (Elt F) → (⟨S50000x128, .f32⟩ : BufTy).Contents (Elt F)),
    StableHlo.binary main_v96 main_v100 main_v101 (addf : (⟨S50000x128, .f32⟩ : BufTy).Contents (Elt F) → (⟨S50000x128, .f32⟩ : BufTy).Contents (Elt F) → (⟨S50000x128, .f32⟩ : BufTy).Contents (Elt F)),
    StableHlo.unary main_arg6 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v103 main_v104 (addf : (⟨S50000x128, .f32⟩ : BufTy).Contents (Elt F) → (⟨S50000x128, .f32⟩ : BufTy).Contents (Elt F) → (⟨S50000x128, .f32⟩ : BufTy).Contents (Elt F)) ]

end Cert.ReferenceIdeal.HandRun

end
-- ==== Proof.RefRun.lean ====
/-
  The reference's run. Its @main is a straight line of host operations (the one call, of the leaky activation, runs
  the callee's seven operations in place, the select through a nested call); so every weakly fair execution ends
  with each buffer at the fold of those operations over the launch contents, and the fold at the result buffer is
  `Spec.out` of the arguments: the specification's pieces are the program's own stretches, named.
-/
import proofs.«167321_j11570641895553_1_alg».proof.Proof.Gen.ReferenceIdeal
import proofs.«167321_j11570641895553_1_alg».proof.Proof.Spec
import proofs.«167321_j11570641895553_1_alg».proof.Proof.RefOps
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The program as one list of operations -/

/-- The call's seven operations, over the call's own buffers: the activation's six (the scalar zero, its broadcast,
    the comparison y ≥ 0, the slope converted to its own type, its broadcast, the product slope · y) and then the
    nested call's one, the select between y and that product. -/
abbrev opsCall : List (HloOp τ sig (Elt F)) :=
  [ TRef.nullary main_call0.cst (constant S_ .f32 0x00000000#32),
    TRef.unary main_call0.cst main_call0.v0 (broadcastInDim S50000x128 ![] bcast_S_S50000x128),
    TRef.binary (.of main_v53) main_call0.v0 main_call0.v1 (cmpf .oge),
    TRef.unary (.of main_cst_10) main_call0.v2 id,
    TRef.unary main_call0.v2 main_call0.v3 (broadcastInDim S50000x128 ![] bcast_S_S50000x128),
    TRef.binary main_call0.v3 (.of main_v53) main_call0.v4 mulf,
    TRef.ternary main_call0.v1 (.of main_v53) main_call0.v4 main_call0.call0.v0 select ]

/-- @main's 136 operations in order: the first window's sixty, the second window's fifty-nine with the call's seven
    standing in the call's place, the third window's ten. -/
abbrev ops : List (HloOp τ sig (Elt F)) := ops0 ++ (ops1a ++ (opsCall ++ (ops1b ++ ops2)))

/-- The first window is the straight line of its operations: it holds no call, so the two sides are the same chain
    of steps; the line's closing return, grafted onto the window's last step, computes away. -/
theorem part0_eq (c : Dev nD) : main_part0 (F := F) c = seq ops0 := rfl

/-- The third window likewise (it ends in the return itself). -/
theorem part2_eq (c : Dev nD) : main_part2 (F := F) c = seq ops2 := rfl

-- fifty-nine steps and a call reassociated: the rewrite under the chain recurses once per statement
set_option maxRecDepth 4096 in
/-- The second window: the two callees' definitions unfolded at the call (a call executes the callee's body on the
    operands) and sequencing reassociated, the call's seven lines stand between the window's own. -/
theorem part1_eq (c : Dev nD) : main_part1 (F := F) c = seq (ops1a ++ (opsCall ++ ops1b)) := by
  simp only [main_part1, fn_leaky_relu.body, fn_where.body, bind_assoc, pure_bind]
  rfl

/-- @main runs its three windows in order, and lines run one after the other are their concatenation run as one. -/
theorem main_eq (c : Dev nD) : main (F := F) c = seq ops := by
  have h : (ops : List (HloOp τ sig (Elt F))) = ops0 ++ ((ops1a ++ (opsCall ++ ops1b)) ++ ops2) := by
    simp only [ops, List.append_assoc]
  rw [h, seq_append, seq_append, ← part0_eq c, ← part1_eq c, ← part2_eq c]
  rfl

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only: each is one of the builders, whose buffers are its operands'
    and its result's references. -/
theorem ops_sub : (ops : List (HloOp τ sig (Elt F))).Forall fun op => op.bufs ⊆ tcRefs τ sig := by
  simp only [ops, ops0, ops1a, opsCall, ops1b, ops2, List.cons_append, List.nil_append, List.Forall,
    nullary_bufs_sub, unary_bufs_sub, binary_bufs_sub, ternary_bufs_sub, reshape_bufs_sub, and_self]

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, read at the result and at the arguments -/

-- the composed term is deep: the second layer's input occurs twice in it, the first layer's output three times under that
set_option maxRecDepth 16384 in
set_option maxHeartbeats 8000000 in
/-- The fold at the result buffer is `Spec.out` of the contents of the arguments. Unrolling the fold, each operation
    gives its function's value at its own result buffer and leaves every other buffer as it was (the references are
    told apart by computation); what remains at the result is the operations' composed term over the arguments'
    contents: the slices and reshapes of the edge list, the index wrap, the degree vector, the edge weights, the
    scatter-add of the scaled gathered rows, the self-loop term, the two sums, the activation between the layers.
    The specification's definitions are these same stretches, named, so the two sides agree by unfolding; the typed
    references' transports are the identity at these literal references. -/
theorem out_eq (V : Valuation τ sig (Elt F)) :
    after ops V (main_v104 : DevRef τ sig)
      = Cert.Spec.out (V (main_arg0 : DevRef τ sig)) (V (main_arg1 : DevRef τ sig)) (V (main_arg3 : DevRef τ sig))
          (V (main_arg4 : DevRef τ sig)) (V (main_arg5 : DevRef τ sig)) (V (main_arg6 : DevRef τ sig)) := by
  simp only [ops, ops0, ops1a, opsCall, ops1b, ops2, List.cons_append, List.nil_append]
  after_results_simp
  rfl

/-! No operation writes an argument's buffer: the fold leaves each at its launch contents. -/

theorem arg0_eq (V : Valuation τ sig (Elt F)) : after ops V (main_arg0 : DevRef τ sig) = V (main_arg0 : DevRef τ sig) := by
  simp only [ops, ops0, ops1a, opsCall, ops1b, ops2, List.cons_append, List.nil_append]
  after_results_simp
theorem arg1_eq (V : Valuation τ sig (Elt F)) : after ops V (main_arg1 : DevRef τ sig) = V (main_arg1 : DevRef τ sig) := by
  simp only [ops, ops0, ops1a, opsCall, ops1b, ops2, List.cons_append, List.nil_append]
  after_results_simp
theorem arg2_eq (V : Valuation τ sig (Elt F)) : after ops V (main_arg2 : DevRef τ sig) = V (main_arg2 : DevRef τ sig) := by
  simp only [ops, ops0, ops1a, opsCall, ops1b, ops2, List.cons_append, List.nil_append]
  after_results_simp
theorem arg3_eq (V : Valuation τ sig (Elt F)) : after ops V (main_arg3 : DevRef τ sig) = V (main_arg3 : DevRef τ sig) := by
  simp only [ops, ops0, ops1a, opsCall, ops1b, ops2, List.cons_append, List.nil_append]
  after_results_simp
theorem arg4_eq (V : Valuation τ sig (Elt F)) : after ops V (main_arg4 : DevRef τ sig) = V (main_arg4 : DevRef τ sig) := by
  simp only [ops, ops0, ops1a, opsCall, ops1b, ops2, List.cons_append, List.nil_append]
  after_results_simp
theorem arg5_eq (V : Valuation τ sig (Elt F)) : after ops V (main_arg5 : DevRef τ sig) = V (main_arg5 : DevRef τ sig) := by
  simp only [ops, ops0, ops1a, opsCall, ops1b, ops2, List.cons_append, List.nil_append]
  after_results_simp
theorem arg6_eq (V : Valuation τ sig (Elt F)) : after ops V (main_arg6 : DevRef τ sig) = V (main_arg6 : DevRef τ sig) := by
  simp only [ops, ops0, ops1a, opsCall, ops1b, ops2, List.cons_append, List.nil_append]
  after_results_simp

/-! ## The statement -/

/-- On every device, for any float values, from any memory with zero counters: every weakly fair execution of @main
    terminates with the result at the specification's composition of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104)
        = Cert.Spec.out (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v104).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_main m ρ)

end Cert.ReferenceIdeal.HandRun

end
-- ==== Proof.lean ====
/-
  Two graph-convolution layers over N = 50000 nodes and E = 800000 edges, D = 128 features: the kernel program runs
  each layer's projection x · Wᵀ and its closing sum (messages + self loop + bias, the first layer through a leaky
  select) as tiled kernel regions over ten blocks of 5000 rows, with the degree normalisation, the gathers along the
  edges and the scatter-adds on the host between them; the reference runs everything on the host.

  At the extended reals both compute `Spec.out` of the arguments (Proof/Spec.lean): the kernel's regions are
  row-block restrictions of the whole-array product and of the whole-array sum (Proof/RegionLinear.lean,
  Proof/RegionCombine.lean — a change of float format is the identity, the product into a zero accumulator is the
  plain sum over the contracted axis, and y · c = c · y), its host stretches are the reference's own operations on
  equal arrays (Proof/KernelValue.lean), and the reference's straight line is that composition read off
  (Proof/RefRun.lean). No law used needs the inputs finite. The frames are the generated ones, the reference's its
  run with the result dropped; the idealization rewrote nothing, so `preserves` is `True`.
-/
import proofs.«167321_j11570641895553_1_alg».proof.Defs
import proofs.«167321_j11570641895553_1_alg».proof.Proof.Gen.Kernel
import proofs.«167321_j11570641895553_1_alg».proof.Proof.Gen.Kernel.Skeleton
import proofs.«167321_j11570641895553_1_alg».proof.Proof.Gen.Kernel.Launch
import proofs.«167321_j11570641895553_1_alg».proof.Proof.Gen.Kernel.Points
import proofs.«167321_j11570641895553_1_alg».proof.Proof.Gen.Kernel.Frame
import proofs.«167321_j11570641895553_1_alg».proof.Proof.Gen.KernelIdeal
import proofs.«167321_j11570641895553_1_alg».proof.Proof.Gen.KernelIdeal.Skeleton
import proofs.«167321_j11570641895553_1_alg».proof.Proof.Gen.KernelIdeal.Launch
import proofs.«167321_j11570641895553_1_alg».proof.Proof.Gen.KernelIdeal.Points
import proofs.«167321_j11570641895553_1_alg».proof.Proof.Gen.KernelIdeal.Frame
import proofs.«167321_j11570641895553_1_alg».proof.Proof.Gen.ReferenceIdeal
import proofs.«167321_j11570641895553_1_alg».proof.Proof.Gen.Pre_finite_inputs
import proofs.«167321_j11570641895553_1_alg».proof.Proof.KernelValue
import proofs.«167321_j11570641895553_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with what it says of the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- Both runs end with their result at `Spec.out` of their own arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
